-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S1000x512 : Shape := ⟨2, ![1000, 512]⟩
abbrev S1000 : Shape := ⟨1, ![1000]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S1000x512 : S_.BroadcastsInDim S1000x512 (![] : Fin 0 → Fin S1000x512.rank)
  reducesTo_S1000x512_S_d0_1 : S1000x512.ReducesTo [0, 1] S_
  bcast_S_S1000 : S_.BroadcastsInDim S1000 (![] : Fin 0 → Fin S1000.rank)
  reducesTo_S1000_S_d0 : S1000.ReducesTo [0] S_

variable [Facts]

def fn {F : FTy → Type} [FloatOps F] (main_arg0 : FVec F S16384x512 .f32) (main_arg1 : FVec F S1000x512 .f32) (main_arg2 : FVec F S1000 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S1000x512 .f32 := Host.absf main_arg1
  let main_cst_0 : FVec F S_ .f32 := constant S_ .f32 0x7F800000#32
  let main_v5 : FVec F S1000x512 .f32 := broadcastInDim S1000x512 ![] bcast_S_S1000x512 main_cst_0
  let main_v6 : IVec S1000x512 1 := cmpf .olt main_v4 main_v5
  let main_c_1 : IVec S_ 1 := constantI S_ 1 1#1
  let main_v7 : IVec S_ 1 := (fun x v => Host.reduce IntOp.andi x v reducesTo_S1000x512_S_d0_1 h_S_) main_v6 main_c_1
  let main_v8 : IVec S_ 1 := andi main_v3 main_v7
  let main_v9 : FVec F S1000 .f32 := Host.absf main_arg2
  let main_cst_2 : FVec F S_ .f32 := constant S_ .f32 0x7F800000#32
  let main_v10 : FVec F S1000 .f32 := broadcastInDim S1000 ![] bcast_S_S1000 main_cst_2
  let main_v11 : IVec S1000 1 := cmpf .olt main_v9 main_v10
  let main_c_3 : IVec S_ 1 := constantI S_ 1 1#1
  let main_v12 : IVec S_ 1 := (fun x v => Host.reduce IntOp.andi x v reducesTo_S1000_S_d0 h_S_) main_v11 main_c_3
  let main_v13 : IVec S_ 1 := andi main_v8 main_v12
  main_v13
-- ==== Kernel.lean ====
abbrev S16384x512 : Shape := ⟨2, ![16384, 512]⟩
abbrev S1000x512 : Shape := ⟨2, ![1000, 512]⟩
abbrev S1000 : Shape := ⟨1, ![1000]⟩
abbrev S512x1000 : Shape := ⟨2, ![512, 1000]⟩
abbrev S_ : Shape := ⟨0, ![]⟩
abbrev S1000x1 : Shape := ⟨2, ![1000, 1]⟩
abbrev S1x1000 : Shape := ⟨2, ![1, 1000]⟩
abbrev S16384x1000 : Shape := ⟨2, ![16384, 1000]⟩
abbrev S2048x512 : Shape := ⟨2, ![2048, 512]⟩
abbrev S2048x1000 : Shape := ⟨2, ![2048, 1000]⟩
abbrev S2048 : Shape := ⟨1, ![2048]⟩
abbrev S2048x1 : Shape := ⟨2, ![2048, 1]⟩

abbrev nBuf : Space → Nat
  | .hbm => 11
  | .vmem => 7
  | .smem => 0
  | _ => 0

abbrev bufTy : (tb : Table) → Fin (tcTables nBuf tb) → BufTy
  | .hbm, ⟨0, _⟩ => ⟨S16384x512, .f32⟩
  | .hbm, ⟨1, _⟩ => ⟨S1000x512, .f32⟩
  | .hbm, ⟨2, _⟩ => ⟨S1000, .f32⟩
  | .hbm, ⟨3, _⟩ => ⟨S512x1000, .f32⟩
  | .hbm, ⟨4, _⟩ => ⟨S1000x512, .f32⟩
  | .hbm, ⟨5, _⟩ => ⟨S_, .f32⟩
  | .hbm, ⟨6, _⟩ => ⟨S1000, .f32⟩
  | .hbm, ⟨7, _⟩ => ⟨S1000x1, .f32⟩
  | .hbm, ⟨8, _⟩ => ⟨S1x1000, .f32⟩
  | .hbm, ⟨9, _⟩ => ⟨S1x1000, .f32⟩
  | .hbm, ⟨10, _⟩ => ⟨S16384x1000, .f32⟩
  | .local _ .vmem, ⟨0, _⟩ => ⟨S2048x512, .f32⟩
  | .local _ .vmem, ⟨1, _⟩ => ⟨S2048x512, .f32⟩
  | .local _ .vmem, ⟨2, _⟩ => ⟨S512x1000, .f32⟩
  | .local _ .vmem, ⟨3, _⟩ => ⟨S1x1000, .f32⟩
  | .local _ .vmem, ⟨4, _⟩ => ⟨S1x1000, .f32⟩
  | .local _ .vmem, ⟨5, _⟩ => ⟨S2048x1000, .f32⟩
  | .local _ .vmem, ⟨6, _⟩ => ⟨S2048x1000, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x1000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S1000x512_S512x1000_1_0 : S1000x512.Transposes [1, 0] S512x1000
  reducesTo_S1000x512_S1000_d1 : S1000x512.ReducesTo [1] S1000
  h_S_ : 0 < S_.numel
  bcast_S1000_S1000x1_0 : S1000.BroadcastsInDim S1000x1 (![0] : Fin 1 → Fin S1000x1.rank)
  shapeCasts_S1000x1_S1x1000 : S1000x1.ShapeCasts S1x1000
  shapeCasts_S1000_S1x1000 : S1000.ShapeCasts S1x1000
  inb_S2048x512_S2048x512_0_0 : ∀ a, (![0, 0] : Fin 2 → Nat) a + S2048x512.size a ≤ S2048x512.size a
  h_S2048x512 : 0 < S2048x512.numel
  reduces_S2048x512_S2048 : S2048x512.Reduces [1] S2048
  shapeCasts_S2048_S2048x1 : S2048.ShapeCasts S2048x1
  inb_S512x1000_S512x1000_0_0 : ∀ a, (![0, 0] : Fin 2 → Nat) a + S512x1000.size a ≤ S512x1000.size a
  h_S512x1000 : 0 < S512x1000.numel
  shapeCasts_S512x1000_S512x1000 : S512x1000.ShapeCasts S512x1000
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  broadcasts_S2048x1_S2048x1000 : S2048x1.Broadcasts S2048x1000
  broadcasts_S1x1000_S2048x1000 : S1x1000.Broadcasts S2048x1000
  inb_S2048x1000_S2048x1000_0_0 : ∀ a, (![0, 0] : Fin 2 → Nat) a + S2048x1000.size a ≤ S2048x1000.size a
  h_S2048x1000 : 0 < S2048x1000.numel
  dot_S2048x512_S512x1000_S2048x1000_1_0_0_1_n_n_wf : DotDims.WF S2048x512 S512x1000 S2048x1000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x512.size a
  hwx0_0 : ∀ i : grid0.Coords, EltTy.bits .f32 = 32 ∨ (Rect.block (s := S16384x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1000.size a ≤ S512x1000.size a
  hwx0_1 : ∀ i : grid0.Coords, EltTy.bits .f32 = 32 ∨ (Rect.block (s := S512x1000) S512x1000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1000.size a ≤ S1x1000.size a
  hwx0_2 : ∀ i : grid0.Coords, EltTy.bits .f32 = 32 ∨ (Rect.block (s := S1x1000) S1x1000.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1000.size a ≤ S1x1000.size a
  hwx0_3 : ∀ i : grid0.Coords, EltTy.bits .f32 = 32 ∨ (Rect.block (s := S1x1000) S1x1000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1000.size a ≤ S16384x1000.size a
  hwx0_4 : ∀ i : grid0.Coords, EltTy.bits .f32 = 32 ∨ (Rect.block (s := S16384x1000) S2048x1000.size (cc0_transform_4 i) (hinb0_4 i)).WholeWords (EltTy.packing .f32)

variable [Facts₀]

def dot_S2048x512_S512x1000_S2048x1000_1_0_0_1_n_n : DotDims S2048x512 S512x1000 S2048x1000 where
  lhsContracting := [1]
  rhsContracting := [0]
  lhsNonContracting := [0]
  rhsNonContracting := [1]
  lhsBatch := []
  rhsBatch := []
  wf := dot_S2048x512_S512x1000_S2048x1000_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1000.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x1000.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S2048x1000.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x512 : Shape := ⟨2, ![16384, 512]⟩
abbrev S1000x512 : Shape := ⟨2, ![1000, 512]⟩
abbrev S1000 : Shape := ⟨1, ![1000]⟩
abbrev S_ : Shape := ⟨0, ![]⟩
abbrev S16384 : Shape := ⟨1, ![16384]⟩
abbrev S16384x1 : Shape := ⟨2, ![16384, 1]⟩
abbrev S16384x1000 : Shape := ⟨2, ![16384, 1000]⟩
abbrev S1x1000 : Shape := ⟨2, ![1, 1000]⟩

abbrev nBuf : Space → Nat
  | .hbm => 23
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S1000x512, .f32⟩
  | .hbm, ⟨2, _⟩ => ⟨S1000, .f32⟩
  | .hbm, ⟨3, _⟩ => ⟨S16384x512, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S1000x512, .f32⟩
  | .hbm, ⟨8, _⟩ => ⟨S_, .f32⟩
  | .hbm, ⟨9, _⟩ => ⟨S1000, .f32⟩
  | .hbm, ⟨10, _⟩ => ⟨S16384x1000, .f32⟩
  | .hbm, ⟨11, _⟩ => ⟨S1x1000, .f32⟩
  | .hbm, ⟨12, _⟩ => ⟨S16384x1000, .f32⟩
  | .hbm, ⟨13, _⟩ => ⟨S16384x1000, .f32⟩
  | .hbm, ⟨14, _⟩ => ⟨S16384x1000, .f32⟩
  | .hbm, ⟨15, _⟩ => ⟨S_, .f32⟩
  | .hbm, ⟨16, _⟩ => ⟨S16384x1000, .f32⟩
  | .hbm, ⟨17, _⟩ => ⟨S16384x1000, .f32⟩
  | .hbm, ⟨18, _⟩ => ⟨S16384x1000, .f32⟩
  | .hbm, ⟨19, _⟩ => ⟨S16384x1000, .f32⟩
  | .hbm, ⟨20, _⟩ => ⟨S1x1000, .f32⟩
  | .hbm, ⟨21, _⟩ => ⟨S16384x1000, .f32⟩
  | .hbm, ⟨22, _⟩ => ⟨S16384x1000, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  reducesTo_S16384x512_S16384_d1 : S16384x512.ReducesTo [1] S16384
  h_S_ : 0 < S_.numel
  bcast_S16384_S16384x1_0 : S16384.BroadcastsInDim S16384x1 (![0] : Fin 1 → Fin S16384x1.rank)
  reducesTo_S1000x512_S1000_d1 : S1000x512.ReducesTo [1] S1000
  bcast_S1000_S1x1000_1 : S1000.BroadcastsInDim S1x1000 (![1] : Fin 1 → Fin S1x1000.rank)
  bcast_S16384x1_S16384x1000_0_1 : S16384x1.BroadcastsInDim S16384x1000 (![0, 1] : Fin 2 → Fin S16384x1000.rank)
  bcast_S1x1000_S16384x1000_0_1 : S1x1000.BroadcastsInDim S16384x1000 (![0, 1] : Fin 2 → Fin S16384x1000.rank)
  bcast_S_S16384x1000 : S_.BroadcastsInDim S16384x1000 (![] : Fin 0 → Fin S16384x1000.rank)
  dot_S16384x512_S1000x512_S16384x1000_1_1_0_0_n_n_wf : DotDims.WF S16384x512 S1000x512 S16384x1000 [1] [1] [0] [0] [] []

variable [Facts₀]

def dot_S16384x512_S1000x512_S16384x1000_1_1_0_0_n_n : DotDims S16384x512 S1000x512 S16384x1000 where
  lhsContracting := [1]
  rhsContracting := [1]
  lhsNonContracting := [0]
  rhsNonContracting := [0]
  lhsBatch := []
  rhsBatch := []
  wf := dot_S16384x512_S1000x512_S16384x1000_1_1_0_0_n_n_wf

class Facts : Prop extends Facts₀ where

variable [Facts]
-- ==== Proof.Score.lean ====
/-
  The function both programs compute. For a data row `b` of `D` (16384 rows of 512 features) and a centroid `k`
  (a row of `W`, 1000 rows of 512 features) with weight `γ k`, the score is the negated squared Euclidean distance
  in its expanded form, scaled by the weight:

      score (b, k) = -((‖D_b‖² + ‖W_k‖²) - 2 · ⟨D_b, W_k⟩) · γ_k,

  where ‖X_r‖² = Σ_f X(r, f)·X(r, f) and ⟨D_b, W_k⟩ = Σ_f D(b, f)·W(k, f) are sums over the 512 features, taken on the
  extended reals. The grouping is the one both programs use, so no law of arithmetic beyond "a finite sum does not
  depend on how it is laid out" is needed to identify them, and no entry has to be finite.
-/
import Idealize.ShloMosaic.PureOps.Ideal
import Idealize.ShloMosaic.PureOps.Ideal.Laws
import Idealize.ShloMosaic.Lib.ValueIdx

noncomputable section

namespace Cert.Centroid

open Idealize.ShloMosaic Idealize.ShloMosaic.ValueIdx

/-- The squared norm of row `r` of a matrix with 512 columns: the sum of the squares of its entries. -/
def rowSq {n : ℕ} (X : (⟨2, ![n, 512]⟩ : Shape).Idx → EReal) (r : Fin n) : EReal :=
  ∑ f : Fin 512, X (ix2 r f) * X (ix2 r f)

/-- The inner product of row `b` of `D` with row `k` of `W`. -/
def rowDot (D : (⟨2, ![16384, 512]⟩ : Shape).Idx → EReal) (W : (⟨2, ![1000, 512]⟩ : Shape).Idx → EReal)
    (b : Fin 16384) (k : Fin 1000) : EReal :=
  ∑ f : Fin 512, D (ix2 b f) * W (ix2 k f)

/-- The score of data row `b` against centroid `k`. The factor two is kept as the float word both programs carry. -/
def scoreAt (D : (⟨2, ![16384, 512]⟩ : Shape).Idx → EReal) (W : (⟨2, ![1000, 512]⟩ : Shape).Idx → EReal)
    (γ : (⟨1, ![1000]⟩ : Shape).Idx → EReal) (b : Fin 16384) (k : Fin 1000) : EReal :=
  (-((rowSq D b + rowSq W k) - Ideal.ofBits .f32 0x40000000#32 * rowDot D W b k)) * γ (ix1 k)

/-- The whole score matrix, index by index. -/
def score (D : (⟨2, ![16384, 512]⟩ : Shape).Idx → EReal) (W : (⟨2, ![1000, 512]⟩ : Shape).Idx → EReal)
    (γ : (⟨1, ![1000]⟩ : Shape).Idx → EReal) : (⟨2, ![16384, 1000]⟩ : Shape).Idx → EReal :=
  fun i => scoreAt D W γ (i 0) (i 1)

theorem score_ix2 (D : (⟨2, ![16384, 512]⟩ : Shape).Idx → EReal) (W : (⟨2, ![1000, 512]⟩ : Shape).Idx → EReal)
    (γ : (⟨1, ![1000]⟩ : Shape).Idx → EReal) (b : Fin 16384) (k : Fin 1000) :
    score D W γ (ix2 b k) = scoreAt D W γ b k := rfl

end Cert.Centroid

end
-- ==== Proof.RefScore.lean ====
/-
  The reference computes the score. Read one operation at a time, its last stage at `(b, k)` is

      (-((0 + Σ_f D(b,f)·D(b,f)) + (0 + Σ_f W(k,f)·W(k,f)) - 2 · Σ_f D(b,f)·W(k,f))) · γ(k):

  the two keepdims broadcasts only carry a row's or a centroid's squared norm to position `(b, k)`, the contraction
  pairs feature `f` of row `b` with feature `f` of centroid `k`, and the zero each host sum starts from is absorbed.
-/
import proofs.«140567_j55843164783484_1_alg».proof.Proof.Gen.ReferenceIdeal.Read
import proofs.«140567_j55843164783484_1_alg».proof.Proof.Score

noncomputable section

namespace Cert.ReferenceIdeal.RefScore

open Cert.ReferenceIdeal Cert.ReferenceIdeal.Read Idealize.ShloMosaic Idealize.ShloMosaic.ValueIdx Cert.Centroid

/-- The reference's result stage, at the exact extended reals, is the score matrix of its three arguments. -/
theorem stage_eq_score (x0 : (⟨S16384x512, .f32⟩ : BufTy).Contents (Elt Ideal)) (x1 : (⟨S1000x512, .f32⟩ : BufTy).Contents (Elt Ideal))
    (x2 : (⟨S1000, .f32⟩ : BufTy).Contents (Elt Ideal)) :
    val_main_v16 (F := Ideal) x0 x1 x2 = score x0 x1 x2 := by
  funext i
  obtain ⟨b, k, rfl⟩ : ∃ (b : Fin 16384) (k : Fin 1000), i = ix2 b k := ⟨i 0, i 1, eq_ix2 i⟩
  -- where each stage reads its operand, followed from the result index `(b, k)` back to the arguments
  have eD : ∀ f : Fin 512, idx_main_v1 (idx_main_v2 (idx_main_v7 (ix2 b k))) f = ix2 b f := fun f =>
    funext fun a => Fin.ext (by match a with | ⟨0, _⟩ => rfl | ⟨1, _⟩ => rfl)
  have eW : ∀ f : Fin 512, idx_main_v4 (idx_main_v6 (idx_main_v8 (ix2 b k))) f = ix2 k f := fun f =>
    funext fun a => Fin.ext (by match a with | ⟨0, _⟩ => rfl | ⟨1, _⟩ => rfl)
  have eL : ∀ f : Fin 512, lidx_main_v5 (ix2 b k) f = ix2 b f := fun f =>
    funext fun a => Fin.ext (by match a with | ⟨0, _⟩ => rfl | ⟨1, _⟩ => rfl)
  have eR : ∀ f : Fin 512, ridx_main_v5 (ix2 b k) f = ix2 k f := fun f =>
    funext fun a => Fin.ext (by match a with | ⟨0, _⟩ => rfl | ⟨1, _⟩ => rfl)
  have eG : idx_main_v14 (idx_main_v15 (ix2 b k)) = ix1 k :=
    funext fun a => Fin.ext (by match a with | ⟨0, _⟩ => rfl)
  rw [val_main_v16_apply, val_main_v13_apply, val_main_v12_apply, val_main_v9_apply, val_main_v7_apply, val_main_v2_apply,
    val_main_v1_apply, val_main_v8_apply, val_main_v6_apply, val_main_v4_apply, val_main_v11_apply, val_main_v10_apply,
    val_main_cst_1_apply, val_main_v5_apply, val_main_v15_apply, val_main_v14_apply]
  simp only [val_main_v0_apply, val_main_v3_apply, val_main_cst_apply, val_main_cst_0_apply, eD, eW, eL, eR, eG,
    Ideal.mulf_def, Ideal.subf_def, Ideal.addf_def, Ideal.hostNegf_def, Ideal.negf_def, Ideal.ofBits_def,
    Ideal.ofBits_zero_f32, zero_add]
  rfl

end Cert.ReferenceIdeal.RefScore

end
-- ==== Proof.LibColumnToRow.lean ====
/-
  A one-column matrix re-laid as a one-row matrix, read at an index: the reshape that follows a `keepdims` row
  reduction when its result is wanted as a row. General in the extent and in the element type.
-/
import Idealize.ShloMosaic.Lib.ValueIdx
import Idealize.ShloMosaic.Lib.Pipeline.Value

namespace Cert.Lib.ColumnToRow

open Idealize.ShloMosaic Idealize.ShloMosaic.ValueIdx

variable {α : Type}

/-- An `[a, 1]` array cast to `[1, a]` reads, at `(u, i)`, the operand at `(i, u')`, whatever the unit coordinates:
    both have row-major position `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) (u' : Fin 1) : shapeCast ⟨2, ![1, a]⟩ x h (ix2 u i) = x (ix2 i u') :=
  shapeCast_apply x h _ _ (by
    have hu : u.val = 0 := by omega
    have hu' : u'.val = 0 := by omega
    rw [Shape.rowMajor_val_two, Shape.rowMajor_val_two]
    show i.val * 1 + u'.val = u.val * a + i.val
    rw [hu, hu', Nat.zero_mul, Nat.zero_add, Nat.mul_one, Nat.add_zero])

end Cert.Lib.ColumnToRow
-- ==== Proof.HostPrep.lean ====
/-
  The three arrays the host prepares before the grid runs, each read at an index in terms of the arguments:
  the centroid matrix transposed (entry `(f, k)` is `W(k, f)`), the centroids' squared norms laid out as one row
  (entry `(0, k)` is `Σ_f W(k,f)·W(k,f)`: a row sum kept as a column, then re-laid as a row), and the weights laid
  out as one row (entry `(0, k)` is `γ(k)`).
-/
import proofs.«140567_j55843164783484_1_alg».proof.Proof.Gen.KernelIdeal.Frame
import proofs.«140567_j55843164783484_1_alg».proof.Proof.LibColumnToRow
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Prep

open Cert.KernelIdeal Cert.KernelIdeal.Gen Idealize.ShloMosaic Idealize.ShloMosaic.TcCoe Idealize.ShloMosaic.ValueIdx
open Idealize.SL.Sem Idealize.ShloMosaic.StableHlo Cert.Lib.ColumnToRow

variable (m : (ℓ : Loc nD τ sig) → Buf (Elt Ideal) ℓ)

/-! ## The host's row sum -/

/-- The host's sum along the feature axis of a 1000 by 512 matrix, started from the zero word, read at row `k`. -/
theorem hostRowSum_at (y : FVec Ideal S1000x512 .f32) (k : Fin 1000) :
    Host.reduceAdd (F := Ideal) y (constant (F := Ideal) S_ .f32 0x00000000#32) reducesTo_S1000x512_S1000_d1 h_S_ (ix1 k)
      = ∑ f : Fin 512, y (ix2 k f) := by
  simp only [Host.reduceAdd, Ideal.hostReduceAdd_def]
  rw [Ideal.hostReduceAdd_single reducesTo_S1000x512_S1000_d1 (by decide)]
  show Ideal.ofBits .f32 0x00000000#32 + _ = _
  rw [Ideal.ofBits_zero_f32, zero_add]
  exact Finset.sum_congr rfl fun f _ => congrArg y (funext fun a => Fin.ext (by
    match a with
    | ⟨0, _⟩ => rfl
    | ⟨1, _⟩ => rfl))

/-! ## The arrays by name -/

/-- The centroid matrix as launched on core `c`. -/
abbrev centroids (c : Dev nD) : S1000x512.Idx → EReal := m ((c : Thread nD τ).loc main_arg1)
/-- The weights as launched on core `c`. -/
abbrev weights (c : Dev nD) : S1000.Idx → EReal := m ((c : Thread nD τ).loc main_arg2)
/-- The transposed centroid matrix, as the grid finds it. -/
abbrev centroidsT (c : Dev nD) : S512x1000.Idx → EReal := V m c main_v0
/-- The row of squared norms, as the grid finds it. -/
abbrev normRow (c : Dev nD) : S1x1000.Idx → EReal := V m c main_v4
/-- The row of weights, as the grid finds it. -/
abbrev weightRow (c : Dev nD) : S1x1000.Idx → EReal := V m c main_v5

/-! ## The transposed centroids -/

theorem centroidsT_eq (c : Dev nD) :
    centroidsT m c = transpose S512x1000 [1, 0] (centroids m c) transposes_S1000x512_S512x1000_1_0 := by
  show V m c main_v0 = _
  dsimp only [Gen.V, Gen.hostOps0]; after_results

/-- Entry `(f, k)` of the transposed matrix is entry `(k, f)` of the centroid matrix as launched. -/
theorem centroidsT_at (c : Dev nD) (f : Fin 512) (k : Fin 1000) :
    centroidsT m c (ix2 f k) = centroids m c (ix2 k f) := by
  rw [centroidsT_eq]
  exact transpose_ix2_apply _ transposes_S1000x512_S512x1000_1_0 f k

/-! ## The squared norms as a row -/

theorem normRow_eq (c : Dev nD) :
    normRow m c = shapeCast S1x1000 (broadcastInDim S1000x1 ![0] bcast_S1000_S1000x1_0
          (Host.reduceAdd (F := Ideal) (mulf (centroids m c) (centroids m c))
            (constant (F := Ideal) S_ .f32 0x00000000#32) reducesTo_S1000x512_S1000_d1 h_S_)) shapeCasts_S1000x1_S1x1000 := by
  show V m c main_v4 = _
  dsimp only [Gen.V, Gen.hostOps0]; after_results
  rfl

/-- Entry `(0, k)` of the row is the squared norm of centroid `k`. -/
theorem normRow_at (c : Dev nD) (k : Fin 1000) :
    normRow m c (ix2 (0 : Fin 1) k) = ∑ f : Fin 512, centroids m c (ix2 k f) * centroids m c (ix2 k f) := by
  rw [normRow_eq]
  refine (shapeCast_a1_1a_apply _ shapeCasts_S1000x1_S1x1000 (0 : Fin 1) k (0 : Fin 1)).trans ?_
  refine (broadcastInDim_apply _ bcast_S1000_S1000x1_0 _ (ix2 k (0 : Fin 1)) (ix1 k) (fun a => match a with
    | ⟨0, _⟩ => by show k.val = if (1000 : Nat) = 1 then 0 else k.val; rw [if_neg (by decide)])).trans ?_
  exact hostRowSum_at _ k

/-! ## The weights as a row -/

theorem weightRow_eq (c : Dev nD) :
    weightRow m c = shapeCast S1x1000 (weights m c) shapeCasts_S1000_S1x1000 := by
  show V m c main_v5 = _
  dsimp only [Gen.V, Gen.hostOps0]; after_results
  rfl

/-- Entry `(0, k)` of the row is the weight of centroid `k` as launched. -/
theorem weightRow_at (c : Dev nD) (k : Fin 1000) :
    weightRow m c (ix2 (0 : Fin 1) k) = weights m c (ix1 k) := by
  rw [weightRow_eq]
  exact shapeCast_a_1a_apply _ shapeCasts_S1000_S1x1000 (0 : Fin 1) k

end Cert.KernelIdeal.Prep

end
-- ==== Proof.LibKeepdims.lean ====
/-
  Column forms of the layout operations a `keepdims` reduction leaves behind, read at an index: a vector turned into a
  one-column matrix, and a one-column matrix broadcast along its rows. General in the extents and in the element type.
-/
import Idealize.ShloMosaic.Lib.ValueIdx
import Idealize.ShloMosaic.Lib.Pipeline.Value

namespace Cert.Lib.Keepdims

open Idealize.ShloMosaic Idealize.ShloMosaic.ValueIdx

variable {α : Type}

/-- An `[a]` array cast to `[a, 1]` reads, at `(i, u)`, the operand at `i`, whatever the unit coordinate `u`:
    both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims
-- ==== Proof.TilePayload.lean ====
/-
  What one grid step of the kernel stores, entry by entry. The step holds a tile `x` of 2048 data rows, the
  transposed centroid matrix `wT` (512 features by 1000 centroids), the row `n` of the centroids' squared norms and the
  row `g` of their weights, and stores at `(p, q)`

      (0 - ((Σ_f x(p,f)·x(p,f) + n(0,q)) - 2 · Σ_f x(p,f)·wT(f,q))) · g(0,q).

  The lane sum of a row's squares is kept as a column and broadcast along the row; the two resident rows are broadcast
  down the tile; the matrix product into a zero accumulator is the plain sum over the contracted feature axis; and
  `0 - v` is `-v` on the extended reals.
-/
import proofs.«140567_j55843164783484_1_alg».proof.Proof.Gen.KernelIdeal.Skeleton
import proofs.«140567_j55843164783484_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx Cert.Lib.Keepdims

/-! ## The lane sum of a tile row -/

/-- The sum along the feature axis of a 2048 by 512 tile, read at row `p`: the sum of that row's 512 entries. -/
theorem laneSum_at (y : FVec Ideal S2048x512 .f32) (p : Fin 2048) :
    multiReduction (F := Ideal) .add [1] S2048 y 0x00000000#32 reduces_S2048x512_S2048 (.inl rfl) rfl (ix1 p)
      = ∑ f : Fin 512, y (ix2 p f) :=
  (Ideal.multiReduction_add_single y 0x00000000#32 reduces_S2048x512_S2048 (.inl rfl) rfl (ix1 p)).trans
    (Finset.sum_congr rfl fun f _ => congrArg y (funext fun a => Fin.ext (by
      match a with
      | ⟨0, _⟩ => rfl
      | ⟨1, _⟩ => rfl)))

/-- A row's squared norm, kept as a one-column matrix and broadcast along the row, read at `(p, q)`. -/
theorem rowNorm_at (x : FVec Ideal S2048x512 .f32) (p : Fin 2048) (q : Fin 1000) :
    broadcastTo S2048x1000 (shapeCast S2048x1
        (multiReduction (F := Ideal) .add [1] S2048 (mulf x x) 0x00000000#32 reduces_S2048x512_S2048 (.inl rfl) rfl)
        shapeCasts_S2048_S2048x1) broadcasts_S2048x1_S2048x1000 (ix2 p q)
      = ∑ f : Fin 512, x (ix2 p f) * x (ix2 p f) :=
  (broadcastTo_a1_ab_apply _ broadcasts_S2048x1_S2048x1000 p q).trans
    ((shapeCast_a_a1_apply _ shapeCasts_S2048_S2048x1 p (0 : Fin 1)).trans (laneSum_at (mulf x x) p))

/-! ## A resident row broadcast down the tile -/

/-- A one-row matrix (passed through a cast to its own shape) broadcast over 2048 rows, read at `(p, q)`: its entry
    in column `q`. -/
theorem residentRow_at (r : FVec Ideal S1x1000 .f32) (p : Fin 2048) (q : Fin 1000) :
    broadcastTo S2048x1000 (shapeCast S1x1000 r shapeCasts_S1x1000_S1x1000) broadcasts_S1x1000_S2048x1000 (ix2 p q)
      = r (ix2 (0 : Fin 1) q) :=
  (broadcastTo_1b_ab_apply _ broadcasts_S1x1000_S2048x1000 p q).trans
    (congrFun (shapeCast_self r shapeCasts_S1x1000_S1x1000) _)

/-! ## The matrix product -/

theorem lhs_axis0 (i : S2048x1000.Idx) (k : dot_S2048x512_S512x1000_S2048x1000_1_0_0_1_n_n.contr.Idx) :
    (dot_S2048x512_S512x1000_S2048x1000_1_0_0_1_n_n.lhsIdx i k 0).val = (i 0).val := by
  unfold DotDims.lhsIdx
  rw [dif_neg (show ¬(0 : Fin S2048x512.rank) ∈ dot_S2048x512_S512x1000_S2048x1000_1_0_0_1_n_n.lhsBatch by decide),
    dif_pos (show (0 : Fin S2048x512.rank) ∈ dot_S2048x512_S512x1000_S2048x1000_1_0_0_1_n_n.lhsNonContracting by decide)]
  rfl
theorem lhs_axis1 (i : S2048x1000.Idx) (k : dot_S2048x512_S512x1000_S2048x1000_1_0_0_1_n_n.contr.Idx) :
    (dot_S2048x512_S512x1000_S2048x1000_1_0_0_1_n_n.lhsIdx i k 1).val = (k ⟨0, by decide⟩).val :=
  dot_S2048x512_S512x1000_S2048x1000_1_0_0_1_n_n.lhsIdx_val_of_single rfl i k
theorem rhs_axis0 (i : S2048x1000.Idx) (k : dot_S2048x512_S512x1000_S2048x1000_1_0_0_1_n_n.contr.Idx) :
    (dot_S2048x512_S512x1000_S2048x1000_1_0_0_1_n_n.rhsIdx i k 0).val = (k ⟨0, by decide⟩).val :=
  dot_S2048x512_S512x1000_S2048x1000_1_0_0_1_n_n.rhsIdx_val_of_single rfl i k
theorem rhs_axis1 (i : S2048x1000.Idx) (k : dot_S2048x512_S512x1000_S2048x1000_1_0_0_1_n_n.contr.Idx) :
    (dot_S2048x512_S512x1000_S2048x1000_1_0_0_1_n_n.rhsIdx i k 1).val = (i 1).val := by
  unfold DotDims.rhsIdx
  rw [dif_neg (show ¬(1 : Fin S512x1000.rank) ∈ dot_S2048x512_S512x1000_S2048x1000_1_0_0_1_n_n.rhsBatch by decide),
    dif_pos (show (1 : Fin S512x1000.rank) ∈ dot_S2048x512_S512x1000_S2048x1000_1_0_0_1_n_n.rhsNonContracting by decide)]
  rfl

/-- The tile times the transposed centroid matrix (passed through a cast to its own shape), into a zero accumulator,
    read at `(p, q)`: the sum over the 512 features of row `p` of the tile against column `q`. -/
theorem product_at (x : FVec Ideal S2048x512 .f32) (wT : FVec Ideal S512x1000 .f32) (p : Fin 2048) (q : Fin 1000) :
    matmul (F := Ideal) dot_S2048x512_S512x1000_S2048x1000_1_0_0_1_n_n none x (shapeCast S512x1000 wT shapeCasts_S512x1000_S512x1000)
        (constant S2048x1000 .f32 0x00000000#32) (ix2 p q)
      = ∑ f : Fin 512, x (ix2 p f) * wT (ix2 f q) := by
  rw [shapeCast_self wT shapeCasts_S512x1000_S512x1000]
  refine (Ideal.matmul_constant_zero_apply dot_S2048x512_S512x1000_S2048x1000_1_0_0_1_n_n none x wT (ix2 p q)).trans ?_
  rw [← Equiv.sum_comp (contrEquiv1 dot_S2048x512_S512x1000_S2048x1000_1_0_0_1_n_n 512 rfl rfl).symm]
  refine Finset.sum_congr rfl fun f _ => ?_
  have hf := contrEquiv1_symm_val dot_S2048x512_S512x1000_S2048x1000_1_0_0_1_n_n 512 rfl rfl f
  have el : dot_S2048x512_S512x1000_S2048x1000_1_0_0_1_n_n.lhsIdx (ix2 p q) ((contrEquiv1 dot_S2048x512_S512x1000_S2048x1000_1_0_0_1_n_n 512 rfl rfl).symm f) = ix2 p f := funext fun a => Fin.ext (by
    match a with
    | ⟨0, _⟩ => exact lhs_axis0 _ _
    | ⟨1, _⟩ => exact (lhs_axis1 _ _).trans hf)
  have er : dot_S2048x512_S512x1000_S2048x1000_1_0_0_1_n_n.rhsIdx (ix2 p q) ((contrEquiv1 dot_S2048x512_S512x1000_S2048x1000_1_0_0_1_n_n 512 rfl rfl).symm f) = ix2 f q := funext fun a => Fin.ext (by
    match a with
    | ⟨0, _⟩ => exact (rhs_axis0 _ _).trans hf
    | ⟨1, _⟩ => exact rhs_axis1 _ _)
  rw [el, er]

/-! ## The stored value -/

/-- The value one grid step stores, at `(p, q)` of its tile. -/
theorem stored_at (x : FVec Ideal S2048x512 .f32) (wT : FVec Ideal S512x1000 .f32) (n g : FVec Ideal S1x1000 .f32)
    (p : Fin 2048) (q : Fin 1000) :
    k0_pay1 (F := Ideal) x wT n g (ix2 p q)
      = (-((∑ f : Fin 512, x (ix2 p f) * x (ix2 p f) + n (ix2 (0 : Fin 1) q))
            - Ideal.ofBits .f32 0x40000000#32 * ∑ f : Fin 512, x (ix2 p f) * wT (ix2 f q))) * g (ix2 (0 : Fin 1) q) := by
  have h1 := rowNorm_at x p q
  have h2 := residentRow_at n p q
  have h3 := residentRow_at g p q
  have h4 := product_at x wT p q
  unfold k0_pay1
  dsimp only
  simp only [mulf_apply, subf_apply, addf_apply, broadcast_apply, h1, h2, h3, h4]
  show (Ideal.ofBits .f32 0x00000000#32 - _) * _ = _
  rw [Ideal.ofBits_zero_f32, zero_sub]
  rfl

end Cert.KernelIdeal.Tile

end
-- ==== Proof.TileScore.lean ====
/-
  One grid step stores scores. If the step's tile row `p` is data row `r`, its second operand is the centroid matrix
  transposed, its third the row of the centroids' squared norms and its fourth the row of their weights, then what it
  stores at `(p, q)` is the score of data row `r` against centroid `q`: the stored expression and the score have the
  same shape, term for term, once `0 - v` is read as `-v`.
-/
import proofs.«140567_j55843164783484_1_alg».proof.Proof.TilePayload
import proofs.«140567_j55843164783484_1_alg».proof.Proof.Score

noncomputable section

namespace Cert.KernelIdeal.Tile

open Cert.KernelIdeal Cert.KernelIdeal.Gen Idealize.ShloMosaic Idealize.ShloMosaic.ValueIdx Cert.Centroid

theorem stored_is_score (D : S16384x512.Idx → EReal) (W : S1000x512.Idx → EReal) (γ : S1000.Idx → EReal)
    (x : FVec Ideal S2048x512 .f32) (wT : FVec Ideal S512x1000 .f32) (n g : FVec Ideal S1x1000 .f32)
    (r : Fin 16384) (p : Fin 2048) (q : Fin 1000)
    (hx : ∀ f : Fin 512, x (ix2 p f) = D (ix2 r f))
    (hw : ∀ f : Fin 512, wT (ix2 f q) = W (ix2 q f))
    (hn : n (ix2 (0 : Fin 1) q) = ∑ f : Fin 512, W (ix2 q f) * W (ix2 q f))
    (hg : g (ix2 (0 : Fin 1) q) = γ (ix1 q)) :
    k0_pay1 (F := Ideal) x wT n g (ix2 p q) = scoreAt D W γ r q := by
  rw [stored_at, hn, hg]
  unfold scoreAt rowSq rowDot
  simp only [hx, hw]

end Cert.KernelIdeal.Tile

end
-- ==== Proof.WholeArray.lean ====
/-
  From tiles to the whole result. The grid has 8 steps; step `t` works on data rows `2048·t … 2048·t + 2047` and
  writes back rows `2048·t …` of the result, all 1000 columns, while the three prepared arrays stay resident (their
  block index is always zero). So what step `t` writes back is its block of the score matrix of the arguments, the
  8 blocks cover all 16384 rows, and the result array ends as the score matrix.
-/
import proofs.«140567_j55843164783484_1_alg».proof.Proof.Gen.KernelIdeal.Value
import proofs.«140567_j55843164783484_1_alg».proof.Proof.HostPrep
import proofs.«140567_j55843164783484_1_alg».proof.Proof.TileScore

set_option maxRecDepth 16384

noncomputable section

namespace Cert.KernelIdeal.Whole

open Cert.KernelIdeal Cert.KernelIdeal.Gen Cert.KernelIdeal.Prep Cert.KernelIdeal.Tile Cert.Centroid
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The data matrix as launched on core `c`. -/
abbrev data (c : Dev nD) : S16384x512.Idx → EReal := m ((c : Thread nD τ).loc main_arg0)

/-- The score matrix of the three arguments as launched on core `c`. -/
abbrev scores (c : Dev nD) : S16384x1000.Idx → EReal := score (data m c) (centroids m c) (weights m c)

theorem origin : (![0, 0] : Fin 2 → Nat) = fun _ => 0 := funext fun a => by fin_cases a <;> rfl

/-- Where each window's block sits at step `t`: the data and result blocks at row block `t`, the resident ones at the origin. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- WHAT STEP `t` WRITES BACK is its block of the score matrix. -/
theorem flushed_eq (c : Dev nD) (t : Fin cfg0.N) :
    (dats m 0 c).flushed 4 t = ((cfg0.win 4).blk t).view.read (Elt Ideal) (scores m c) := by
  rw [Value.flushed4]
  unfold out0_4
  rw [View.canon_unit_zero origin]
  simp only [View.ld_unit_zero (S := S2048x512) origin, View.ld_unit_zero (S := S512x1000) origin,
    View.ld_unit_zero (S := S1x1000) origin]
  obtain ⟨e00, e01, e10, e11, e20, e21, e30, e31, e40, e41⟩ := index_facts t
  have ht : t.val < grid0.N := t.isLt
  rw [N_0] at ht
  refine funext fun (j : S2048x1000.Idx) => ?_
  obtain ⟨p, q, rfl⟩ : ∃ (p : Fin 2048) (q : Fin 1000), j = ix2 p q := ⟨j 0, j 1, eq_ix2 j⟩
  have hp := p.isLt
  have hq := q.isLt
  show k0_pay1 (F := Ideal) (iblk m c 0 t) (iblk m c 1 t) (iblk m c 2 t) (iblk m c 3 t) (ix2 p q)
    = scores m c (((cfg0.win 4).blk t).view.emb (ix2 p q))
  have hemb : ((cfg0.win 4).blk t).view.emb (ix2 p q) = ix2 (⟨t.val * 2048 + p.val, by omega⟩ : Fin 16384) q := by
    funext a; apply Fin.ext
    match a with
    | ⟨0, _⟩ => show win0_4.index t (0 : Fin 2) * 2048 + 1 * p.val = t.val * 2048 + p.val; omega
    | ⟨1, _⟩ => show win0_4.index t (1 : Fin 2) * 1000 + 1 * q.val = q.val; omega
  rw [hemb]
  show _ = scoreAt (data m c) (centroids m c) (weights m c) (⟨t.val * 2048 + p.val, by omega⟩ : Fin 16384) q
  refine stored_is_score (data m c) (centroids m c) (weights m c) (iblk m c 0 t) (iblk m c 1 t) (iblk m c 2 t) (iblk m c 3 t)
    (⟨t.val * 2048 + p.val, by omega⟩ : Fin 16384) p q (fun f => ?_) (fun f => ?_) ?_ ?_
  · -- row `p` of the data tile is data row `2048·t + p`
    have hf := f.isLt
    show V m c main_arg0 (((cfg0.win 0).blk t).view.emb (ix2 p f)) = data m c (ix2 (⟨t.val * 2048 + p.val, by omega⟩ : Fin 16384) f)
    rw [V_main_arg0]
    refine congrArg (data m c) ?_
    funext a; apply Fin.ext
    match a with
    | ⟨0, _⟩ => show win0_0.index t (0 : Fin 2) * 2048 + 1 * p.val = t.val * 2048 + p.val; omega
    | ⟨1, _⟩ => show win0_0.index t (1 : Fin 2) * 512 + 1 * f.val = f.val; omega
  · -- the second operand is the whole transposed centroid matrix
    have hf := f.isLt
    show centroidsT m c (((cfg0.win 1).blk t).view.emb (ix2 f q)) = centroids m c (ix2 q f)
    have hi : ((cfg0.win 1).blk t).view.emb (ix2 f q) = ix2 f q := by
      funext a; apply Fin.ext
      match a with
      | ⟨0, _⟩ => show win0_1.index t (0 : Fin 2) * 512 + 1 * f.val = f.val; omega
      | ⟨1, _⟩ => show win0_1.index t (1 : Fin 2) * 1000 + 1 * q.val = q.val; omega
    rw [hi]
    exact centroidsT_at m c f q
  · -- the third operand is the whole row of squared norms
    show normRow m c (((cfg0.win 2).blk t).view.emb (ix2 (0 : Fin 1) q)) = _
    have hi : ((cfg0.win 2).blk t).view.emb (ix2 (0 : Fin 1) q) = ix2 (0 : Fin 1) q := by
      funext a; apply Fin.ext
      match a with
      | ⟨0, _⟩ => show win0_2.index t (0 : Fin 2) * 1 + 1 * 0 = 0; omega
      | ⟨1, _⟩ => show win0_2.index t (1 : Fin 2) * 1000 + 1 * q.val = q.val; omega
    rw [hi]
    exact normRow_at m c q
  · -- the fourth operand is the whole row of weights
    show weightRow m c (((cfg0.win 3).blk t).view.emb (ix2 (0 : Fin 1) q)) = _
    have hi : ((cfg0.win 3).blk t).view.emb (ix2 (0 : Fin 1) q) = ix2 (0 : Fin 1) q := by
      funext a; apply Fin.ext
      match a with
      | ⟨0, _⟩ => show win0_3.index t (0 : Fin 2) * 1 + 1 * 0 = 0; omega
      | ⟨1, _⟩ => show win0_3.index t (1 : Fin 2) * 1000 + 1 * q.val = q.val; omega
    rw [hi]
    exact weightRow_at m c q

/-- An index of the result array is in step `t`'s block iff each coordinate is in the block's range on its axis. -/
theorem mem_blk (t : Fin cfg0.N) (i : S16384x1000.Idx) :
    i ∈ ((cfg0.win 4).blk t).view.set ↔ ∀ a : Fin 2, win0_4.index t a * S2048x1000.size a ≤ (i a).val
      ∧ (i a).val < win0_4.index t a * S2048x1000.size a + S2048x1000.size a := by
  show i ∈ ((View.whole main_v6).slice (win0_4.rect t)).set ↔ _
  rw [View.set_slice_whole, Rect.mem_set_unit]
  exact Iff.rfl

/-- Every index of the result is written back by some step: row `r` by step `r / 2048`. -/
theorem covered (i : S16384x1000.Idx) :
    ∃ t : Fin cfg0.N, (cfg0.win 4).flush t = true ∧ i ∈ ((cfg0.win 4).blk t).view.set := by
  have hi0 : (i 0).val < 16384 := (i 0).isLt
  have hi1 : (i 1).val < 1000 := (i 1).isLt
  have hN : (i 0).val / 2048 < grid0.N := by rw [N_0]; omega
  let t : Fin cfg0.N := ⟨(i 0).val / 2048, hN⟩
  obtain ⟨e00, e01, e10, e11, e20, e21, e30, e31, e40, e41⟩ := index_facts t
  have e40' : win0_4.index t (0 : Fin 2) = (i 0).val / 2048 := e40
  refine ⟨t, flush0_4 t, ?_⟩
  rw [mem_blk]
  intro a
  match a with
  | ⟨0, _⟩ => show win0_4.index t (0 : Fin 2) * 2048 ≤ (i 0).val ∧ (i 0).val < win0_4.index t (0 : Fin 2) * 2048 + 2048; omega
  | ⟨1, _⟩ => show win0_4.index t (1 : Fin 2) * 1000 ≤ (i 1).val ∧ (i 1).val < win0_4.index t (1 : Fin 2) * 1000 + 1000; omega

/-- THE RESULT ARRAY after the run is the score matrix of the arguments. -/
theorem final (c : Dev nD) : (dats m 0 c).arrAt 4 cfg0.N = scores m c :=
  (dats m 0 c).arrAt_eq_of_cover 4 (scores m c) (fun t _ => flushed_eq m c t) covered

/-- The kernel's run: it ends with the result array at the score matrix and the arguments unchanged. -/
theorem run : θ_run defs (onTc (τ := τ) (main (F := Ideal))) ⟨m, fun _ => 0, ρ⟩ fun r => ∀ c : Dev nD,
      r.2.mem ((c : Thread nD τ).loc main_v6) = scores m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.lean ====
/-
  The kernel and its reference compute the same score matrix. For data rows `D` (16384 by 512), centroids `W`
  (1000 by 512) and weights `γ` (1000), both produce, at `(b, k)`,

      -((‖D_b‖² + ‖W_k‖²) - 2 · ⟨D_b, W_k⟩) · γ_k

  on the extended reals, with the same grouping. The reference forms the two squared norms by host sums, the cross
  term by one contraction over the features, and negates. The kernel prepares on the host the centroids transposed,
  their squared norms as a row and the weights as a row; each of its 8 grid steps takes 2048 data rows, sums each
  row's squares along the lanes, multiplies the tile by the transposed centroids into a zero accumulator, and stores
  `(0 - ((‖row‖² + norm) - 2·product)) · weight`. A lane sum and a host sum of the same 512 terms are the same finite
  sum, the tile's product is the contraction restricted to its rows, and `0 - v = -v`; so every step stores its block
  of the score matrix, the blocks cover the result, and the two results agree entry by entry. No entry needs to be
  finite for this, so the precondition is not opened. The three programs' runs terminate with their arguments
  unchanged (the frames), and the idealized kernel is the kernel's own text read at the exact values (nothing was
  rewritten, so there is nothing to preserve).
-/
import proofs.«140567_j55843164783484_1_alg».proof.Defs
import proofs.«140567_j55843164783484_1_alg».proof.Proof.Gen.Kernel
import proofs.«140567_j55843164783484_1_alg».proof.Proof.Gen.Kernel.Skeleton
import proofs.«140567_j55843164783484_1_alg».proof.Proof.Gen.Kernel.Launch
import proofs.«140567_j55843164783484_1_alg».proof.Proof.Gen.Kernel.Points
import proofs.«140567_j55843164783484_1_alg».proof.Proof.Gen.Kernel.Frame
import proofs.«140567_j55843164783484_1_alg».proof.Proof.Gen.KernelIdeal
import proofs.«140567_j55843164783484_1_alg».proof.Proof.Gen.KernelIdeal.Skeleton
import proofs.«140567_j55843164783484_1_alg».proof.Proof.Gen.KernelIdeal.Launch
import proofs.«140567_j55843164783484_1_alg».proof.Proof.Gen.KernelIdeal.Points
import proofs.«140567_j55843164783484_1_alg».proof.Proof.Gen.KernelIdeal.Frame
import proofs.«140567_j55843164783484_1_alg».proof.Proof.Gen.ReferenceIdeal
import proofs.«140567_j55843164783484_1_alg».proof.Proof.Gen.Pre_finite_inputs
import proofs.«140567_j55843164783484_1_alg».proof.Proof.Gen.KernelIdeal.Value
import proofs.«140567_j55843164783484_1_alg».proof.Proof.Gen.ReferenceIdeal.Run
import proofs.«140567_j55843164783484_1_alg».proof.Proof.Gen.ReferenceIdeal.Read
import proofs.«140567_j55843164783484_1_alg».proof.Proof.RefScore
import proofs.«140567_j55843164783484_1_alg».proof.Proof.WholeArray
import Idealize.ShloMosaic.Adequacy
import Idealize.ShloMosaic.Init

noncomputable section

namespace Cert.Proof

open Idealize.ShloMosaic Idealize.ShloMosaic.TcCoe Idealize.SL.Sem

/-- The kernel as printed runs to the end with its arguments unchanged. -/
theorem frame_kernel : Cert.frame_Kernel := fun m ρ _ => Cert.Kernel.Gen.frame m ρ

/-- So does the kernel read at the exact values. -/
theorem frame_kernelIdeal : Cert.frame_KernelIdeal := fun m ρ _ => Cert.KernelIdeal.Gen.frame m ρ

/-- And the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten when the kernel was read at the exact values. -/
theorem preserves : Cert.preserves_Kernel_KernelIdeal := trivial

/-- From memories agreeing on the three arguments, the kernel's result array and the reference's result both end at
    the score matrix of those arguments. -/
theorem algebraic : Cert.algebraic_KernelIdeal_ReferenceIdeal := by
  intro m ρ m' ρ' _ hagree
  refine ⟨fun c => Cert.KernelIdeal.Whole.scores m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefScore.stage_eq_score,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
